-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x1 : Shape := ⟨2, ![262144, 1]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x1 : S_.BroadcastsInDim S262144x1 (![] : Fin 0 → Fin S262144x1.rank)
  reducesTo_S262144x1_S_d0_1 : S262144x1.ReducesTo [0, 1] S_

variable [Facts]

def fn {F : FTy → Type} [FloatOps F] (main_arg0 : FVec F S262144x128 .f32) (main_arg1 : FVec F S262144x128 .f32) (main_arg2 : FVec F S262144x1 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x1 .f32 := Host.absf main_arg2
  let main_cst_2 : FVec F S_ .f32 := constant S_ .f32 0x7F800000#32
  let main_v10 : FVec F S262144x1 .f32 := broadcastInDim S262144x1 ![] bcast_S_S262144x1 main_cst_2
  let main_v11 : IVec S262144x1 1 := cmpf .olt main_v9 main_v10
  let main_c_3 : IVec S_ 1 := constantI S_ 1 1#1
  let main_v12 : IVec S_ 1 := (fun x v => Host.reduce IntOp.andi x v reducesTo_S262144x1_S_d0_1 h_S_) main_v11 main_c_3
  let main_v13 : IVec S_ 1 := andi main_v8 main_v12
  main_v13
-- ==== Kernel.lean ====
abbrev S262144x128 : Shape := ⟨2, ![262144, 128]⟩
abbrev S262144x1 : Shape := ⟨2, ![262144, 1]⟩
abbrev S1x1 : Shape := ⟨2, ![1, 1]⟩
abbrev S8192x128 : Shape := ⟨2, ![8192, 128]⟩
abbrev S8192x1 : Shape := ⟨2, ![8192, 1]⟩
abbrev S8192 : Shape := ⟨1, ![8192]⟩
abbrev S1x8192x1 : Shape := ⟨3, ![1, 8192, 1]⟩
abbrev S1 : Shape := ⟨1, ![1]⟩
abbrev S1x1x1 : Shape := ⟨3, ![1, 1, 1]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x1, .f32⟩
  | .hbm, ⟨3, _⟩ => ⟨S1x1, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x1, .f32⟩
  | .local _ .vmem, ⟨5, _⟩ => ⟨S8192x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  natLt_1_32 : 1 < 32
  inb_S8192x1_S8192x1_0_0 : ∀ a, (![0, 0] : Fin 2 → Nat) a + S8192x1.size a ≤ S8192x1.size a
  h_S8192x1 : 0 < S8192x1.numel
  shapeCasts_S1x1_S1x1 : S1x1.ShapeCasts S1x1
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S262144x1.size a
  hwx0_2 : ∀ i : grid0.Coords, EltTy.bits .f32 = 32 ∨ (Rect.block (s := S262144x1) S8192x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x1 : Shape := ⟨2, ![262144, 1]⟩
abbrev S_ : Shape := ⟨0, ![]⟩
abbrev S262144 : Shape := ⟨1, ![262144]⟩

abbrev nBuf : Space → Nat
  | .hbm => 27
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x1, .f32⟩
  | .hbm, ⟨3, _⟩ => ⟨S262144x128, .f32⟩
  | .hbm, ⟨4, _⟩ => ⟨S262144x128, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S_, .f32⟩
  | .hbm, ⟨9, _⟩ => ⟨S262144, .f32⟩
  | .hbm, ⟨10, _⟩ => ⟨S262144, .i1⟩
  | .hbm, ⟨11, _⟩ => ⟨S262144, .f32⟩
  | .hbm, ⟨12, _⟩ => ⟨S262144x1, .f32⟩
  | .hbm, ⟨13, _⟩ => ⟨S262144x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  reducesTo_S262144x1_S_d0_1 : S262144x1.ReducesTo [0, 1] S_

variable [Facts₀]

class Facts : Prop extends Facts₀ where

variable [Facts]
-- ==== Proof.LibTotalSum.lean ====
/-
  General facts about sums over index sets, independent of any program.

  * A total sum over an array does not see a reshape: `shapeCast` re-indexes by a bijection of the two index
    sets (the same row-major position), and a finite sum is invariant under a bijection.
  * A sum over `T * B` consecutive positions is the sum over `T` runs of the sums over the `B` positions of each
    run: position `r + B * t` is the `r`-th position of run `t` (`sum_runs`; `sum_runs_at` with the positions named).
  * A rank-2 array with a unit second axis is summed by its rows.
  * On the extended reals a one-bit word widened to 32 bits and read as a SIGNED integer is the word read as an
    UNSIGNED integer: both are `0` or `1`.
-/
import Idealize.ShloMosaic.PureOps.Ideal
import Idealize.ShloMosaic.Lib.ValueIdx

namespace Cert.LibTotalSum

open Idealize.ShloMosaic Idealize.ShloMosaic.ValueIdx

/-- A total sum is invariant under a reshape: the cast reads the operand through a bijection of the index sets. -/
theorem sum_shapeCast {M : Type} [AddCommMonoid M] {s t : Shape} (x : s.Idx → M) (h : s.ShapeCasts t) :
    ∑ j, shapeCast t x h j = ∑ k, x k :=
  Equiv.sum_comp (Shape.reshapeEquiv h) x

/-- A sum over `T * B` positions, cut into `T` runs of `B`: run `t`'s `r`-th position is `finProdFinEquiv (t, r)`,
    whose value is `r + B * t`. -/
theorem sum_runs {M : Type} [AddCommMonoid M] (T B : ℕ) (f : Fin (T * B) → M) :
    ∑ n, f n = ∑ t : Fin T, ∑ r : Fin B, f (finProdFinEquiv (t, r)) := by
  rw [← Equiv.sum_comp finProdFinEquiv f, Fintype.sum_prod_type]

/-- The same with the positions named: if `T * B = N` and `pos t r` is position `B * t + r` of `Fin N`, a sum over
    `Fin N` is the sum over the runs `t` of the sums over the run's positions `r`. -/
theorem sum_runs_at {M : Type} [AddCommMonoid M] (T B N : ℕ) (h : T * B = N) (f : Fin N → M)
    (pos : Fin T → Fin B → Fin N) (hpos : ∀ t r, (pos t r).val = B * t.val + r.val) :
    ∑ n, f n = ∑ t : Fin T, ∑ r : Fin B, f (pos t r) := by
  subst h
  rw [sum_runs T B f]
  refine Finset.sum_congr rfl fun t _ => Finset.sum_congr rfl fun r _ => congrArg f (Fin.ext ?_)
  rw [hpos, finProdFinEquiv_apply_val]
  exact Nat.add_comm _ _

/-- A column — a rank-2 array whose second axis has one coordinate — is summed by its rows. -/
theorem sum_column {M : Type} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A one-bit word is `0` or `1`; widened with zeros to 32 bits its signed reading is its unsigned reading. -/
theorem toInt_setWidth_of_one (b : BitVec 1) : (b.setWidth 32).toInt = (b.toNat : ℤ) := by
  by_cases h : b = 1#1
  · subst h; decide
  · obtain rfl : b = 0#1 := eq_zero_of_ne_one h
    decide

/-- So at the ideal values the signed conversion of the widened bit is the unsigned conversion of the bit. -/
theorem sitofp_setWidth_eq_uitofp (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_of_one]
  norm_cast

end Cert.LibTotalSum
-- ==== Proof.Spec.lean ====
/-
  The specification: what both programs compute, as one function of the three argument arrays, on the extended reals.

  The arrays are `x₁, x₂ : [262144, 128]` and `d : [262144, 1]`. Row `n` is FAR when the Euclidean distance of
  `x₁`'s and `x₂`'s rows exceeds 5/8:

      far n = [ √(∑ₖ (x₁ n k − x₂ n k)²) > 0.625 ]        (1 or 0)

  and the result is the ratio

      (I + ε) / ((A + D − I) + ε),   A = ∑ₙ far n,   D = ∑ₙ d n,   I = ∑ₙ far n · d n,

  with `ε` the f32 nearest 10⁻⁶ (one bit pattern on both sides: it is never evaluated).

  The kernel forms `A`, `D` and `I` block by block — 32 blocks of 8192 consecutive rows — as the running sums
  `(((0 + P₀) + P₁) + …) + P₃₁` of the block sums `Pₜ = ∑ᵣ g (8192 t + r)`; the reference sums all the rows at
  once. Addition of extended reals is commutative and associative (`⊥ + ⊤ = ⊥` included), so the running sum of
  the block sums IS the sum over the rows (`sum_blockSum`): no finiteness of the inputs is needed.
-/
import Idealize.ShloMosaic.PureOps.Ideal
import Idealize.ShloMosaic.PureOps.Ideal.Laws
import Idealize.ShloMosaic.Lib.ValueIdx
import proofs.«137108_j23441931502276_1_alg».proof.Proof.LibTotalSum

noncomputable section

namespace Cert.Accuracy

open Idealize.ShloMosaic Idealize.ShloMosaic.ValueIdx

/-- The threshold test on a squared distance `s`: `1` when `√s > 0.625`, else `0` (the comparison's bit, as a number). -/
def flag (s : EReal) : EReal :=
  (((Ideal.cmp .ogt (Ideal.sqrt s) (Ideal.ofBits .f32 0x3F200000#32)).toNat : ℝ) : EReal)

/-- The squared distance of row `r` of two arrays of `R` rows and 128 lanes. -/
def sqDist {R : ℕ} (a b : (⟨2, ![R, 128]⟩ : Shape).Idx → EReal) (r : Fin R) : EReal :=
  ∑ k : Fin 128, (a (ix2 r k) - b (ix2 r k)) * (a (ix2 r k) - b (ix2 r k))

/-- Row `r` is far: its distance exceeds the threshold. -/
def far {R : ℕ} (a b : (⟨2, ![R, 128]⟩ : Shape).Idx → EReal) (r : Fin R) : EReal := flag (sqDist a b r)

/-- The `r`-th row of block `t`: row `8192 t + r` of the 262144. -/
def rowOf (t : Fin 32) (r : Fin 8192) : Fin 262144 := ⟨8192 * t.val + r.val, by have := t.isLt; have := r.isLt; omega⟩

theorem rowOf_val (t : Fin 32) (r : Fin 8192) : (rowOf t r).val = 8192 * t.val + r.val := rfl

/-- Block `t`'s sum of a row function `g` (zero past the last block, so that it is a function of a natural number). -/
def blockSum (g : Fin 262144 → EReal) (t : ℕ) : EReal :=
  if h : t < 32 then ∑ r : Fin 8192, g (rowOf ⟨t, h⟩ r) else 0

theorem blockSum_of_lt (g : Fin 262144 → EReal) {t : ℕ} (h : t < 32) :
    blockSum g t = ∑ r : Fin 8192, g (rowOf ⟨t, h⟩ r) := dif_pos h

/-- The 32 block sums add up to the sum over all the rows. -/
theorem sum_blockSum (g : Fin 262144 → EReal) : ∑ t ∈ Finset.range 32, blockSum g t = ∑ n, g n := by
  rw [Finset.sum_range, Cert.LibTotalSum.sum_runs_at 32 8192 262144 rfl g rowOf rowOf_val]
  exact Finset.sum_congr rfl fun t _ => blockSum_of_lt g t.isLt

/-- The three totals over the rows, -/
def farCount (x₁ x₂ : (⟨2, ![262144, 128]⟩ : Shape).Idx → EReal) : EReal := ∑ n : Fin 262144, far x₁ x₂ n
def wantSum (d : (⟨2, ![262144, 1]⟩ : Shape).Idx → EReal) : EReal := ∑ n : Fin 262144, d (ix2 n (0 : Fin 1))
def bothSum (x₁ x₂ : (⟨2, ![262144, 128]⟩ : Shape).Idx → EReal) (d : (⟨2, ![262144, 1]⟩ : Shape).Idx → EReal) : EReal :=
  ∑ n : Fin 262144, far x₁ x₂ n * d (ix2 n (0 : Fin 1))

/-- and the ratio both programs return, from the three totals. -/
def ratioOf (A D I : EReal) : EReal :=
  Ideal.div (I + Ideal.ofBits .f32 0x358637BD#32) (A + D - I + Ideal.ofBits .f32 0x358637BD#32)

/-- The result: the ratio of the three totals of the argument arrays. -/
def ratio (x₁ x₂ : (⟨2, ![262144, 128]⟩ : Shape).Idx → EReal) (d : (⟨2, ![262144, 1]⟩ : Shape).Idx → EReal) : EReal :=
  ratioOf (farCount x₁ x₂) (wantSum d) (bothSum x₁ x₂ d)

end Cert.Accuracy

end
-- ==== Proof.RefSpec.lean ====
/-
  The reference computes the specification.

  Read one operation at a time, the reference forms, for every row `n`, the flag `far x₁ x₂ n` — the host's sum over
  the 128 lanes from zero, its square root, the comparison with 0.625, the bit converted as an unsigned integer —
  kept as a column; multiplies the column by `d`; sums the flag column, `d`, and the product column over all their
  entries from zero; and returns the ratio of the three totals. A column is summed by its rows, and `0 + s = s`.
-/
import proofs.«137108_j23441931502276_1_alg».proof.Proof.Gen.ReferenceIdeal.Read
import proofs.«137108_j23441931502276_1_alg».proof.Proof.Spec

noncomputable section

namespace Cert.ReferenceIdeal.RefSpec

open Cert.ReferenceIdeal Cert.ReferenceIdeal.Gen Cert.ReferenceIdeal.Read
open Idealize.ShloMosaic Idealize.ShloMosaic.ValueIdx Cert.Accuracy

variable (x₁ x₂ : (⟨S262144x128, .f32⟩ : BufTy).Contents (Elt Ideal)) (d : (⟨S262144x1, .f32⟩ : BufTy).Contents (Elt Ideal))

/-- The reference's flag column at row `n` is the specification's flag of that row. -/
theorem flagColumn_at (n : Fin 262144) : val_main_v7 (F := Ideal) x₁ x₂ (ix2 n (0 : Fin 1)) = far x₁ x₂ n := by
  have e7 : idx_main_v7 (ix2 n (0 : Fin 1)) = ix1 n :=
    funext fun a => Fin.ext (by match a with | ⟨0, _⟩ => rfl)
  have e2 : ∀ k : Fin 128, idx_main_v2 (ix1 n) k = ix2 n k := fun k =>
    funext fun a => Fin.ext (by match a with | ⟨0, _⟩ => rfl | ⟨1, _⟩ => rfl)
  rw [val_main_v7_apply, e7, val_main_v6_apply, val_main_v5_apply, val_main_v3_apply, val_main_v4_apply,
    val_main_cst_0_apply, val_main_v2_apply, val_main_cst_apply]
  simp only [e2, val_main_v1_apply, val_main_v0_apply, Ideal.ofBits_def, Ideal.ofBits_zero_f32, zero_add]
  rfl

/-- The reference's three totals are the specification's. -/
theorem count_eq (i : S_.Idx) : val_main_v10 (F := Ideal) x₁ x₂ i = farCount x₁ x₂ := by
  rw [val_main_v10_apply, val_main_cst_2_apply, Cert.LibTotalSum.sum_column]
  simp only [flagColumn_at, Ideal.ofBits_def, Ideal.ofBits_zero_f32, zero_add]
  rfl

theorem want_eq (i : S_.Idx) : val_main_v11 (F := Ideal) d i = wantSum d := by
  rw [val_main_v11_apply, val_main_cst_3_apply, Cert.LibTotalSum.sum_column]
  simp only [Ideal.ofBits_def, Ideal.ofBits_zero_f32, zero_add]
  rfl

theorem both_eq (i : S_.Idx) : val_main_v9 (F := Ideal) x₁ x₂ d i = bothSum x₁ x₂ d := by
  rw [val_main_v9_apply, val_main_cst_1_apply, Cert.LibTotalSum.sum_column]
  simp only [val_main_v8_apply, flagColumn_at, Ideal.ofBits_def, Ideal.ofBits_zero_f32, zero_add, Ideal.mulf_def]
  rfl

/-- So the reference's result is the specification's ratio. -/
theorem result_eq : val_main_v16 (F := Ideal) x₁ x₂ d = fun _ => ratio x₁ x₂ d := by
  funext i
  rw [val_main_v16_apply, val_main_v14_apply, val_main_v15_apply, val_main_v13_apply, val_main_v12_apply,
    both_eq, count_eq, want_eq, val_main_cst_4_apply, val_main_cst_5_apply]
  rfl

end Cert.ReferenceIdeal.RefSpec

end
-- ==== Proof.CaseValues.lean ====
/-
  What the body leaves in the three one-element outputs, case by case, as values of the block's loads — at any
  float instance.

  At the FIRST grid point the body stores zero in each output, reads it back, and stores the accumulation step over
  that zero; at every LATER point it reads what the point before left and stores the step over it. Each output's
  staging buffer is one element, every store covers it whole, so what a case leaves is its last store's payload:
  the step over zero, or over the running value.
-/
import proofs.«137108_j23441931502276_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- Every access of the body is at the origin of its buffer. -/
theorem hz : (![0, 0] : Fin 2 → Nat) = fun _ => 0 := funext fun a => by fin_cases a <;> rfl

/-- A later point leaves, in the first output, the count step over the running value. -/
theorem later_3 (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 x1 : Vec F S8192x128 .f32) (x2 : Vec F S8192x1 .f32) (xo3 xo4 xo5 : Vec F S1x1 .f32) :
    out0_B_3 c i a1 h1 a2 h2 a3 h3 a4 h4 a5 h5 a6 h6 hc x0 x1 x2 xo3 xo4 xo5 = k0_pay7 x0 x1 xo3 := by
  unfold out0_B_3
  rw [View.read_writes_eq_canon _ _ _ (cover0_B_3 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S8192x128) hz, View.ld_unit_zero (S := S8192x1) hz, View.ld_unit_zero (S := S1x1) hz]

/-- A later point leaves, in the second output, the step of the third input's block over the running value. -/
theorem later_4 (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 x1 : Vec F S8192x128 .f32) (x2 : Vec F S8192x1 .f32) (xo3 xo4 xo5 : Vec F S1x1 .f32) :
    out0_B_4 c i a1 h1 a2 h2 a3 h3 a4 h4 a5 h5 a6 h6 hc x0 x1 x2 xo3 xo4 xo5 = k0_pay8 x2 xo4 := by
  unfold out0_B_4
  rw [View.read_writes_eq_canon _ _ _ (cover0_B_4 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S8192x128) hz, View.ld_unit_zero (S := S8192x1) hz, View.ld_unit_zero (S := S1x1) hz]

/-- A later point leaves, in the third output, the product step over the running value. -/
theorem later_5 (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 x1 : Vec F S8192x128 .f32) (x2 : Vec F S8192x1 .f32) (xo3 xo4 xo5 : Vec F S1x1 .f32) :
    out0_B_5 c i a1 h1 a2 h2 a3 h3 a4 h4 a5 h5 a6 h6 hc x0 x1 x2 xo3 xo4 xo5 = k0_pay1 (k0_pay6 x0 x1 x2) xo5 := by
  unfold out0_B_5
  rw [View.read_writes_eq_canon _ _ _ (cover0_B_5 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S8192x128) hz, View.ld_unit_zero (S := S8192x1) hz, View.ld_unit_zero (S := S1x1) hz]

/-- The first point leaves, in the first output, the count step over the zero it stored. -/
theorem first_3 (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 x1 : Vec F S8192x128 .f32) (x2 : Vec F S8192x1 .f32) :
    out0_A_3 c i a1 h1 a2 h2 a3 h3 a4 h4 a5 h5 a6 h6 hc x0 x1 x2 = k0_pay7 x0 x1 (k0_pay2 (F := F)) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S8192x128) hz, View.ld_unit_zero (S := S8192x1) hz, View.ld_unit_zero (S := S1x1) hz]

/-- The first point leaves, in the second output, the step of the third input's block over the zero it stored. -/
theorem first_4 (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 x1 : Vec F S8192x128 .f32) (x2 : Vec F S8192x1 .f32) :
    out0_A_4 c i a1 h1 a2 h2 a3 h3 a4 h4 a5 h5 a6 h6 hc x0 x1 x2 = k0_pay8 x2 (k0_pay3 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S8192x128) hz, View.ld_unit_zero (S := S8192x1) hz, View.ld_unit_zero (S := S1x1) hz]

/-- The first point leaves, in the third output, the product step over the zero it stored. -/
theorem first_5 (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x1 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 x1 : Vec F S8192x128 .f32) (x2 : Vec F S8192x1 .f32) :
    out0_A_5 c i a1 h1 a2 h2 a3 h3 a4 h4 a5 h5 a6 h6 hc x0 x1 x2 = k0_pay1 (k0_pay6 x0 x1 x2) (k0_pay4 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S8192x128) hz, View.ld_unit_zero (S := S8192x1) hz, View.ld_unit_zero (S := S1x1) hz]

end Cert.KernelIdeal.Cases

end
-- ==== Proof.LibColumnCast.lean ====
/-
  General facts about the layout of a COLUMN — a rank-2 array whose second axis has one coordinate — and of arrays
  with a single element, independent of any program.

  * A vector `[a]` cast to the column `[a, 1]` keeps its elements in place: entry `(i, 0)` of the column is entry `i`
    of the vector (both have row-major position `i`).
  * A shape whose only axis has one coordinate has one index.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The shape `[1]` has one index. -/
theorem idx_unit1 (k : (⟨1, ![1]⟩ : Shape).Idx) : k = ix1 (0 : Fin 1) := by
  refine (eq_ix1 k).trans (congrArg ix1 (Fin.ext ?_))
  have h : (k 0).val < 1 := (k 0).isLt
  show (k 0).val = 0
  omega

end Cert.LibColumnCast
-- ==== Proof.BlockPayloads.lean ====
/-
  The kernel body's arithmetic at the ideal values, block by block.

  At a grid point the body sees a block of 8192 consecutive rows: `b₁, b₂ : [8192, 128]` of the two inputs and
  `e : [8192, 1]` of the third. Its payloads are
    * the column of the rows' flags: entry `(r, 0)` is `far b₁ b₂ r` — the lane sum of the squared differences, kept
      as a column, its square root compared with 0.625, the comparison's bit widened and converted as a SIGNED integer,
      which on one bit is the unsigned conversion;
    * three accumulations of the same form, `acc + total of a column`, the column being the flags, `e`, and their
      product: the total is a reduction of the column, recast with a leading unit axis, over its two non-unit axes
      into a one-element vector, whose element is then broadcast. A total sum does not see the recast, and a column
      is summed by its rows.
-/
import proofs.«137108_j23441931502276_1_alg».proof.Proof.Gen.KernelIdeal.Skeleton
import Idealize.ShloMosaic.Lib.Pipeline.Value
import Idealize.ShloMosaic.PureOps.Ideal.Laws
import proofs.«137108_j23441931502276_1_alg».proof.Proof.Spec
import proofs.«137108_j23441931502276_1_alg».proof.Proof.LibColumnCast

noncomputable section

namespace Cert.KernelIdeal.Blocks

open Cert.KernelIdeal Cert.KernelIdeal.Gen Idealize.ShloMosaic Idealize.ShloMosaic.ValueIdx Cert.Accuracy

/-- A lane sum kept as a column: entry `(r, 0)` is the sum of row `r`'s 128 lanes. -/
theorem rowSum_at (v : FVec Ideal S8192x128 .f32) (h : S8192x128.Reduces [1] S8192) (hφ : FKind.Formats .f32)
    (hacc : (0x00000000#32 : BitVec 32) = FKind.add.neutral .f32 hφ) (hc : S8192.ShapeCasts S8192x1) (r : Fin 8192) :
    shapeCast S8192x1 (multiReduction .add [1] S8192 v 0x00000000#32 h hφ hacc) hc (ix2 r (0 : Fin 1))
      = ∑ k : Fin 128, v (ix2 r k) := by
  refine (Cert.LibColumnCast.shapeCast_a_a1_apply _ hc r 0).trans ?_
  refine (Ideal.multiReduction_add_single v 0x00000000#32 h hφ hacc (ix1 r)).trans ?_
  exact Finset.sum_congr rfl fun k _ =>
    congrArg v (funext fun a => Fin.ext (by match a with | ⟨0, _⟩ => rfl | ⟨1, _⟩ => rfl))

/-- The flag column: entry `(r, 0)` says whether row `r` of the block is far. -/
theorem flags_at (b₁ b₂ : Vec Ideal S8192x128 .f32) (r : Fin 8192) :
    k0_pay5 (F := Ideal) b₁ b₂ (ix2 r (0 : Fin 1)) = far b₁ b₂ r := by
  show FloatOps.sitofp (F := Ideal) .f32 (BitVec.setWidth 32 (FloatOps.cmpf (F := Ideal) .ogt
      (FloatOps.sqrt (F := Ideal) (shapeCast S8192x1 (multiReduction .add [1] S8192 (mulf (subf b₁ b₂) (subf b₁ b₂)) 0x00000000#32
        reduces_S8192x128_S8192 (.inl rfl) rfl) shapeCasts_S8192_S8192x1 (ix2 r (0 : Fin 1))))
      (FloatOps.ofBits .f32 0x3F200000#32))) = _
  refine (Cert.LibTotalSum.sitofp_setWidth_eq_uitofp .f32 _).trans ?_
  refine (congrArg (fun s : Ideal .f32 => FloatOps.uitofp (F := Ideal) .f32 (FloatOps.cmpf (F := Ideal) (φ := .f32) .ogt
      (FloatOps.sqrt (F := Ideal) (φ := .f32) s) (FloatOps.ofBits .f32 0x3F200000#32)))
    (rowSum_at (mulf (subf b₁ b₂) (subf b₁ b₂)) reduces_S8192x128_S8192 (.inl rfl) rfl shapeCasts_S8192_S8192x1 r)).trans ?_
  rfl

/-- The product column: entry `(r, 0)` is row `r`'s flag times the third input's entry. -/
theorem prod_at (b₁ b₂ : Vec Ideal S8192x128 .f32) (e : Vec Ideal S8192x1 .f32) (r : Fin 8192) :
    k0_pay6 (F := Ideal) b₁ b₂ e (ix2 r (0 : Fin 1)) = far b₁ b₂ r * e (ix2 r (0 : Fin 1)) := by
  show k0_pay5 (F := Ideal) b₁ b₂ (ix2 r (0 : Fin 1)) * e (ix2 r (0 : Fin 1)) = _
  rw [flags_at]

/-- One accumulation step: the accumulator's entry plus the total of the column, row by row. -/
theorem accum_at (v : FVec Ideal S8192x1 .f32) (acc : Vec Ideal S1x1 .f32) (h₁ : S1x1.ShapeCasts S1x1)
    (h₂ : S8192x1.ShapeCasts S1x8192x1) (h₃ : S1x8192x1.Reduces [1, 2] S1) (hφ : FKind.Formats .f32)
    (hacc : (0x00000000#32 : BitVec 32) = FKind.add.neutral .f32 hφ) (h₄ : S1.ShapeCasts S1x1x1)
    (hp : ∀ a, (![0, 0, 0] : Fin 3 → Nat) a < S1x1x1.size a) (y : S1x1.Idx) :
    addf (shapeCast S1x1 acc h₁) (broadcast S1x1 (extractAt ![0, 0, 0] (shapeCast S1x1x1
        (multiReduction .add [1, 2] S1 (shapeCast S1x8192x1 v h₂) 0x00000000#32 h₃ hφ hacc) h₄) hp)) y
      = acc y + ∑ r : Fin 8192, v (ix2 r (0 : Fin 1)) := by
  have total : ∀ k : S1.Idx, multiReduction .add [1, 2] S1 (shapeCast S1x8192x1 v h₂) 0x00000000#32 h₃ hφ hacc k
      = ∑ r : Fin 8192, v (ix2 r (0 : Fin 1)) := fun k =>
    (Ideal.multiReduction_add_total _ _ h₃ (fun b => by match b with | ⟨0, _⟩ => rfl) hφ hacc k).trans
      ((Cert.LibTotalSum.sum_shapeCast v h₂).trans (Cert.LibTotalSum.sum_column v))
  refine (addf_apply _ _ y).trans ?_
  rw [shapeCast_self, broadcast_apply]
  exact congrArg (acc y + ·) (total _)

/-- The first output's step: the accumulator plus the number of far rows of the block. -/
theorem countStep (b₁ b₂ : Vec Ideal S8192x128 .f32) (acc : Vec Ideal S1x1 .f32) (y : S1x1.Idx) :
    k0_pay7 (F := Ideal) b₁ b₂ acc y = acc y + ∑ r : Fin 8192, far b₁ b₂ r :=
  (accum_at (k0_pay5 (F := Ideal) b₁ b₂) acc _ _ _ _ _ _ _ y).trans
    (congrArg (acc y + ·) (Finset.sum_congr rfl fun r _ => flags_at b₁ b₂ r))

/-- The second output's step: the accumulator plus the total of the third input's block. -/
theorem wantStep (e : Vec Ideal S8192x1 .f32) (acc : Vec Ideal S1x1 .f32) (y : S1x1.Idx) :
    k0_pay8 (F := Ideal) e acc y = acc y + ∑ r : Fin 8192, e (ix2 r (0 : Fin 1)) :=
  accum_at e acc _ _ _ _ _ _ _ y

/-- The third output's step: the accumulator plus the total of the product column. -/
theorem bothStep (b₁ b₂ : Vec Ideal S8192x128 .f32) (e : Vec Ideal S8192x1 .f32) (acc : Vec Ideal S1x1 .f32) (y : S1x1.Idx) :
    k0_pay1 (F := Ideal) (k0_pay6 (F := Ideal) b₁ b₂ e) acc y
      = acc y + ∑ r : Fin 8192, far b₁ b₂ r * e (ix2 r (0 : Fin 1)) :=
  (accum_at (k0_pay6 (F := Ideal) b₁ b₂ e) acc _ _ _ _ _ _ _ y).trans
    (congrArg (acc y + ·) (Finset.sum_congr rfl fun r _ => prod_at b₁ b₂ e r))

/-- The reset stores the zero block: at the ideal values, the extended real `0`. -/
theorem zero_at (y : S1x1.Idx) : (k0_pay2 (F := Ideal)) y = 0 ∧ (k0_pay3 (F := Ideal)) y = 0 ∧ (k0_pay4 (F := Ideal)) y = 0 :=
  ⟨Ideal.ofBits_zero_f32, Ideal.ofBits_zero_f32, Ideal.ofBits_zero_f32⟩

end Cert.KernelIdeal.Blocks

end
-- ==== Proof.RunningSums.lean ====
/-
  The three outputs of the kernel's region, as totals over the rows of the argument arrays.

  Grid point `t` sees rows `8192 t … 8192 t + 8191`: entry `(r, k)` of its block of an input is entry
  `(8192 t + r, k)` of the array. So the step a point adds to each output is that block's sum of the output's row
  function — the flag, the third input's entry, their product — and after point `n` each output holds the sum of the
  block sums of points `0 … n`: by induction on the point, the first point's step taken over the zero it stored. The
  outputs are written back once, after the last point; the 32 block sums add up to the sum over all 262144 rows.
-/
import proofs.«137108_j23441931502276_1_alg».proof.Proof.Gen.KernelIdeal.Frame
import proofs.«137108_j23441931502276_1_alg».proof.Proof.CaseValues
import proofs.«137108_j23441931502276_1_alg».proof.Proof.BlockPayloads
import proofs.«137108_j23441931502276_1_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Totals

open Cert.KernelIdeal Cert.KernelIdeal.Gen Idealize.ShloMosaic.ValueIdx Cert.Accuracy

variable (m : (ℓ : Loc nD τ sig) → Buf (Elt Ideal) ℓ) (ρ : Dev nD → PrngReg)

/-- The grid has 32 points. -/
theorem point_lt (t : Fin cfg0.N) : t.val < 32 := lt_of_lt_of_eq t.isLt (show cfg0.N = 32 from N_0)

/-- The last point. -/
abbrev lastPoint : Fin cfg0.N := ⟨31, by rw [show cfg0.N = 32 from N_0]; decide⟩

/-- The three argument arrays, and the three input blocks at a point, by name. -/
abbrev arr₁ (c : Dev nD) : Vec Ideal S262144x128 .f32 := m ((c : Thread nD τ).loc main_arg0)
abbrev arr₂ (c : Dev nD) : Vec Ideal S262144x128 .f32 := m ((c : Thread nD τ).loc main_arg1)
abbrev arr₃ (c : Dev nD) : Vec Ideal S262144x1 .f32 := m ((c : Thread nD τ).loc main_arg2)
abbrev blk₁ (c : Dev nD) (t : Fin cfg0.N) : Vec Ideal S8192x128 .f32 := iblk m c 0 t
abbrev blk₂ (c : Dev nD) (t : Fin cfg0.N) : Vec Ideal S8192x128 .f32 := iblk m c 1 t
abbrev blk₃ (c : Dev nD) (t : Fin cfg0.N) : Vec Ideal S8192x1 .f32 := iblk m c 2 t

/-- Each input's block index at point `t` is `(t, 0)`: decided over the grid. -/
theorem index_facts : ∀ t : Fin cfg0.N,
    win0_0.index t (0 : Fin 2) = t.val ∧ win0_0.index t (1 : Fin 2) = 0
      ∧ win0_1.index t (0 : Fin 2) = t.val ∧ win0_1.index t (1 : Fin 2) = 0
      ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
      ∧ win0_1.index t (0 : Fin 2) = t.val ∧ win0_1.index t (1 : Fin 2) = 0
      ∧ win0_2.index t (0 : Fin 2) = t.val ∧ win0_2.index t (1 : Fin 2) = 0)

/-- Entry `(r, k)` of point `t`'s block of the first input is entry `(8192 t + r, k)` of the array; -/
theorem blk₁_at (c : Dev nD) (t : Fin cfg0.N) (r : Fin 8192) (k : Fin 128) :
    blk₁ m c t (ix2 r k) = arr₁ m c (ix2 (rowOf ⟨t.val, point_lt t⟩ r) k) := by
  unfold blk₁ iblk
  rw [View.read_apply]
  show V m c main_arg0 (((cfg0.win 0).blk t).view.emb (ix2 r k)) = V m c main_arg0 (ix2 (rowOf ⟨t.val, point_lt t⟩ r) k)
  refine congrArg (V m c main_arg0) (funext fun a => Fin.ext ?_)
  match a with
  | ⟨0, _⟩ => show win0_0.index t 0 * 8192 + 1 * r.val = 8192 * t.val + r.val; rw [(index_facts t).1]; omega
  | ⟨1, _⟩ => show win0_0.index t 1 * 128 + 1 * k.val = k.val; rw [(index_facts t).2.1]; omega

/-- the same of the second input; -/
theorem blk₂_at (c : Dev nD) (t : Fin cfg0.N) (r : Fin 8192) (k : Fin 128) :
    blk₂ m c t (ix2 r k) = arr₂ m c (ix2 (rowOf ⟨t.val, point_lt t⟩ r) k) := by
  unfold blk₂ iblk
  rw [View.read_apply]
  show V m c main_arg1 (((cfg0.win 1).blk t).view.emb (ix2 r k)) = V m c main_arg1 (ix2 (rowOf ⟨t.val, point_lt t⟩ r) k)
  refine congrArg (V m c main_arg1) (funext fun a => Fin.ext ?_)
  match a with
  | ⟨0, _⟩ => show win0_1.index t 0 * 8192 + 1 * r.val = 8192 * t.val + r.val; rw [(index_facts t).2.2.1]; omega
  | ⟨1, _⟩ => show win0_1.index t 1 * 128 + 1 * k.val = k.val; rw [(index_facts t).2.2.2.1]; omega

/-- and entry `(r, 0)` of its block of the third input is entry `(8192 t + r, 0)` of that column. -/
theorem blk₃_at (c : Dev nD) (t : Fin cfg0.N) (r : Fin 8192) :
    blk₃ m c t (ix2 r (0 : Fin 1)) = arr₃ m c (ix2 (rowOf ⟨t.val, point_lt t⟩ r) (0 : Fin 1)) := by
  unfold blk₃ iblk
  rw [View.read_apply]
  show V m c main_arg2 (((cfg0.win 2).blk t).view.emb (ix2 r (0 : Fin 1))) = V m c main_arg2 (ix2 (rowOf ⟨t.val, point_lt t⟩ r) (0 : Fin 1))
  refine congrArg (V m c main_arg2) (funext fun a => Fin.ext ?_)
  match a with
  | ⟨0, _⟩ => show win0_2.index t 0 * 8192 + 1 * r.val = 8192 * t.val + r.val; rw [(index_facts t).2.2.2.2.1]; omega
  | ⟨1, _⟩ => show win0_2.index t 1 * 1 + 1 * 0 = 0; rw [(index_facts t).2.2.2.2.2]

/-- The three row functions the outputs total: a row's flag, the third input's entry, their product. -/
def farRow (c : Dev nD) (n : Fin 262144) : EReal := far (arr₁ m c) (arr₂ m c) n
def wantRow (c : Dev nD) (n : Fin 262144) : EReal := arr₃ m c (ix2 n (0 : Fin 1))
def bothRow (c : Dev nD) (n : Fin 262144) : EReal := far (arr₁ m c) (arr₂ m c) n * arr₃ m c (ix2 n (0 : Fin 1))

/-- A block's row is far exactly when the array's row it is is far. -/
theorem far_blk (c : Dev nD) (t : Fin cfg0.N) (r : Fin 8192) :
    far (blk₁ m c t) (blk₂ m c t) r = farRow m c (rowOf ⟨t.val, point_lt t⟩ r) := by
  unfold farRow far sqDist
  refine congrArg flag (Finset.sum_congr rfl fun k _ => ?_)
  rw [blk₁_at, blk₂_at]

/-- So the step each point adds to an output is that block's sum of the output's row function. -/
theorem count_blk (c : Dev nD) (t : Fin cfg0.N) :
    ∑ r : Fin 8192, far (blk₁ m c t) (blk₂ m c t) r = blockSum (farRow m c) t.val := by
  rw [blockSum_of_lt _ (point_lt t)]
  exact Finset.sum_congr rfl fun r _ => far_blk m c t r

theorem want_blk (c : Dev nD) (t : Fin cfg0.N) :
    ∑ r : Fin 8192, blk₃ m c t (ix2 r (0 : Fin 1)) = blockSum (wantRow m c) t.val := by
  rw [blockSum_of_lt _ (point_lt t)]
  exact Finset.sum_congr rfl fun r _ => blk₃_at m c t r

theorem both_blk (c : Dev nD) (t : Fin cfg0.N) :
    ∑ r : Fin 8192, far (blk₁ m c t) (blk₂ m c t) r * blk₃ m c t (ix2 r (0 : Fin 1)) = blockSum (bothRow m c) t.val := by
  rw [blockSum_of_lt _ (point_lt t)]
  refine Finset.sum_congr rfl fun r _ => ?_
  rw [far_blk, blk₃_at]
  rfl

/-- What the three outputs hold after point `n`: for each, the sum of its row function's block sums of points `0 … n`. -/
theorem outsAt_eq (c : Dev nD) : ∀ (n : ℕ) (h : n < cfg0.N),
    outsAt0 m c n h = ((fun _ => ∑ t ∈ Finset.range (n + 1), blockSum (farRow m c) t : Vec Ideal S1x1 .f32),
      (fun _ => ∑ t ∈ Finset.range (n + 1), blockSum (wantRow m c) t : Vec Ideal S1x1 .f32),
      (fun _ => ∑ t ∈ Finset.range (n + 1), blockSum (bothRow m c) t : Vec Ideal S1x1 .f32))
  | 0, h => by
    rw [outsAt0_A m c ⟨0, h⟩ rfl]
    refine congrArg₂ Prod.mk ?_ (congrArg₂ Prod.mk ?_ ?_)
    · refine (Cases.first_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩) (iblk m c 2 ⟨0, h⟩)).trans ?_
      funext y
      refine (Blocks.countStep (blk₁ m c ⟨0, h⟩) (blk₂ m c ⟨0, h⟩) _ y).trans ?_
      rw [(Blocks.zero_at y).1, zero_add, count_blk]
      exact (Finset.sum_range_one _).symm
    · refine (Cases.first_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩) (iblk m c 2 ⟨0, h⟩)).trans ?_
      funext y
      refine (Blocks.wantStep (blk₃ m c ⟨0, h⟩) _ y).trans ?_
      rw [(Blocks.zero_at y).2.1, zero_add, want_blk]
      exact (Finset.sum_range_one _).symm
    · refine (Cases.first_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩) (iblk m c 2 ⟨0, h⟩)).trans ?_
      funext y
      refine (Blocks.bothStep (blk₁ m c ⟨0, h⟩) (blk₂ m c ⟨0, h⟩) (blk₃ m c ⟨0, h⟩) _ y).trans ?_
      rw [(Blocks.zero_at y).2.2, zero_add, both_blk]
      exact (Finset.sum_range_one _).symm
  | n + 1, h => by
    have hN : cfg0.N = 32 := N_0
    have hB : ¬(⟨n + 1, h⟩ : Fin cfg0.N).val % 32 = 0 := by dsimp only; omega
    have ih := outsAt_eq c n (Nat.lt_of_succ_lt h)
    rw [outsAt0_B m c ⟨n + 1, h⟩ hB]
    refine congrArg₂ Prod.mk ?_ (congrArg₂ Prod.mk ?_ ?_)
    · refine (Cases.later_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk m c 0 ⟨n + 1, h⟩) (iblk m c 1 ⟨n + 1, h⟩) (iblk m c 2 ⟨n + 1, h⟩) _ _ _).trans ?_
      funext y
      refine (Blocks.countStep (blk₁ m c ⟨n + 1, h⟩) (blk₂ m c ⟨n + 1, h⟩) _ y).trans ?_
      show (outsAt0 m c n _).1 y + _ = _
      rw [ih, count_blk]
      exact (Finset.sum_range_succ _ _).symm
    · refine (Cases.later_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk m c 0 ⟨n + 1, h⟩) (iblk m c 1 ⟨n + 1, h⟩) (iblk m c 2 ⟨n + 1, h⟩) _ _ _).trans ?_
      funext y
      refine (Blocks.wantStep (blk₃ m c ⟨n + 1, h⟩) _ y).trans ?_
      show (outsAt0 m c n _).2.1 y + _ = _
      rw [ih, want_blk]
      exact (Finset.sum_range_succ _ _).symm
    · refine (Cases.later_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk m c 0 ⟨n + 1, h⟩) (iblk m c 1 ⟨n + 1, h⟩) (iblk m c 2 ⟨n + 1, h⟩) _ _ _).trans ?_
      funext y
      refine (Blocks.bothStep (blk₁ m c ⟨n + 1, h⟩) (blk₂ m c ⟨n + 1, h⟩) (blk₃ m c ⟨n + 1, h⟩) _ y).trans ?_
      show (outsAt0 m c n _).2.2 y + _ = _
      rw [ih, both_blk]
      exact (Finset.sum_range_succ _ _).symm

/-- What the outputs hold after the last point. -/
abbrev held_1 (c : Dev nD) : Buf (Elt Ideal) ((c : Thread nD τ).loc main_v0_0) :=
  (fun _ => (∑ t ∈ Finset.range (31 + 1), blockSum (farRow m c) t : EReal) : Vec Ideal S1x1 .f32)
abbrev held_2 (c : Dev nD) : Buf (Elt Ideal) ((c : Thread nD τ).loc main_v0_1) :=
  (fun _ => (∑ t ∈ Finset.range (31 + 1), blockSum (wantRow m c) t : EReal) : Vec Ideal S1x1 .f32)
abbrev held_3 (c : Dev nD) : Buf (Elt Ideal) ((c : Thread nD τ).loc main_v0_2) :=
  (fun _ => (∑ t ∈ Finset.range (31 + 1), blockSum (bothRow m c) t : EReal) : Vec Ideal S1x1 .f32)

/-- The 32 block sums are the totals over the rows: the specification's three totals of the argument arrays. -/
theorem held_1_eq (c : Dev nD) : held_1 m c = fun _ => farCount (arr₁ m c) (arr₂ m c) :=
  funext fun _ => sum_blockSum (farRow m c)
theorem held_2_eq (c : Dev nD) : held_2 m c = fun _ => wantSum (arr₃ m c) :=
  funext fun _ => sum_blockSum (wantRow m c)
theorem held_3_eq (c : Dev nD) : held_3 m c = fun _ => bothSum (arr₁ m c) (arr₂ m c) (arr₃ m c) :=
  funext fun _ => sum_blockSum (bothRow m c)

/-- After the last point output 1's staging buffer holds the sum of all 32 block sums. -/
theorem left_1 (c : Dev nD) : (dats m 0 c).after 3 lastPoint = held_1 m c := by
  rw [after0_3, outsAt_eq]

/-- Output 1 is written back at the last point only, and what it then holds is one value at every index: so
    whichever entries the block's view reads, what is written back is that value at each of them. -/
theorem flushed_1 (c : Dev nD) (t : Fin cfg0.N) (hf : (cfg0.win 3).flush t = true) :
    (dats m 0 c).flushed 3 t = ((cfg0.win 3).blk t).view.read (Elt Ideal) (held_1 m c) := by
  have h31 : t.val = 31 := by have := (flush0_3 t).mp hf; have := point_lt t; omega
  obtain rfl : t = lastPoint := Fin.ext h31
  have hleft := left_1 m c
  obtain ⟨S, hheld⟩ : ∃ S : EReal, held_1 m c = (fun _ => S) :=
    ⟨∑ t ∈ Finset.range (31 + 1), blockSum (farRow m c) t, rfl⟩
  rw [hheld] at hleft ⊢
  funext y
  rw [View.read_apply]
  show (dats m 0 c).after 3 lastPoint _ = S
  rw [hleft]

/-- So output 1's array ends holding the number of far rows, over all the rows. -/
theorem final_1 (c : Dev nD) : (dats m 0 c).arrAt 3 cfg0.N = held_1 m c :=
  (dats m 0 c).arrAt_eq_of_cover 3 (held_1 m c) (flushed_1 m c) fun i =>
    ⟨lastPoint, (flush0_3 lastPoint).mpr rfl, by
      show i ∈ ((View.whole main_v0_0).slice (win0_3.rect lastPoint)).set
      rw [View.set_slice_whole, Rect.mem_set_unit]
      intro a
      have hi : (i a : Nat) < 1 := by fin_cases a <;> exact (i _).isLt
      have h0 : win0_3.index lastPoint a * win0_3.size a = 0 := by fin_cases a <;> decide +kernel
      have h1 : win0_3.xsize (grid0.coords lastPoint) a = 1 := by fin_cases a <;> decide +kernel
      rw [h0, h1]; omega⟩

/-- After the last point output 2's staging buffer holds the sum of all 32 block sums. -/
theorem left_2 (c : Dev nD) : (dats m 0 c).after 4 lastPoint = held_2 m c := by
  rw [after0_4, outsAt_eq]

/-- Output 2 is written back at the last point only, and what it then holds is one value at every index: so
    whichever entries the block's view reads, what is written back is that value at each of them. -/
theorem flushed_2 (c : Dev nD) (t : Fin cfg0.N) (hf : (cfg0.win 4).flush t = true) :
    (dats m 0 c).flushed 4 t = ((cfg0.win 4).blk t).view.read (Elt Ideal) (held_2 m c) := by
  have h31 : t.val = 31 := by have := (flush0_4 t).mp hf; have := point_lt t; omega
  obtain rfl : t = lastPoint := Fin.ext h31
  have hleft := left_2 m c
  obtain ⟨S, hheld⟩ : ∃ S : EReal, held_2 m c = (fun _ => S) :=
    ⟨∑ t ∈ Finset.range (31 + 1), blockSum (wantRow m c) t, rfl⟩
  rw [hheld] at hleft ⊢
  funext y
  rw [View.read_apply]
  show (dats m 0 c).after 4 lastPoint _ = S
  rw [hleft]

/-- So output 2's array ends holding the total of the third input, over all the rows. -/
theorem final_2 (c : Dev nD) : (dats m 0 c).arrAt 4 cfg0.N = held_2 m c :=
  (dats m 0 c).arrAt_eq_of_cover 4 (held_2 m c) (flushed_2 m c) fun i =>
    ⟨lastPoint, (flush0_4 lastPoint).mpr rfl, by
      show i ∈ ((View.whole main_v0_1).slice (win0_4.rect lastPoint)).set
      rw [View.set_slice_whole, Rect.mem_set_unit]
      intro a
      have hi : (i a : Nat) < 1 := by fin_cases a <;> exact (i _).isLt
      have h0 : win0_4.index lastPoint a * win0_4.size a = 0 := by fin_cases a <;> decide +kernel
      have h1 : win0_4.xsize (grid0.coords lastPoint) a = 1 := by fin_cases a <;> decide +kernel
      rw [h0, h1]; omega⟩

/-- After the last point output 3's staging buffer holds the sum of all 32 block sums. -/
theorem left_3 (c : Dev nD) : (dats m 0 c).after 5 lastPoint = held_3 m c := by
  rw [after0_5, outsAt_eq]

/-- Output 3 is written back at the last point only, and what it then holds is one value at every index: so
    whichever entries the block's view reads, what is written back is that value at each of them. -/
theorem flushed_3 (c : Dev nD) (t : Fin cfg0.N) (hf : (cfg0.win 5).flush t = true) :
    (dats m 0 c).flushed 5 t = ((cfg0.win 5).blk t).view.read (Elt Ideal) (held_3 m c) := by
  have h31 : t.val = 31 := by have := (flush0_5 t).mp hf; have := point_lt t; omega
  obtain rfl : t = lastPoint := Fin.ext h31
  have hleft := left_3 m c
  obtain ⟨S, hheld⟩ : ∃ S : EReal, held_3 m c = (fun _ => S) :=
    ⟨∑ t ∈ Finset.range (31 + 1), blockSum (bothRow m c) t, rfl⟩
  rw [hheld] at hleft ⊢
  funext y
  rw [View.read_apply]
  show (dats m 0 c).after 5 lastPoint _ = S
  rw [hleft]

/-- So output 3's array ends holding the total of the flags times the third input, over all the rows. -/
theorem final_3 (c : Dev nD) : (dats m 0 c).arrAt 5 cfg0.N = held_3 m c :=
  (dats m 0 c).arrAt_eq_of_cover 5 (held_3 m c) (flushed_3 m c) fun i =>
    ⟨lastPoint, (flush0_5 lastPoint).mpr rfl, by
      show i ∈ ((View.whole main_v0_2).slice (win0_5.rect lastPoint)).set
      rw [View.set_slice_whole, Rect.mem_set_unit]
      intro a
      have hi : (i a : Nat) < 1 := by fin_cases a <;> exact (i _).isLt
      have h0 : win0_5.index lastPoint a * win0_5.size a = 0 := by fin_cases a <;> decide +kernel
      have h1 : win0_5.xsize (grid0.coords lastPoint) a = 1 := by fin_cases a <;> decide +kernel
      rw [h0, h1]; omega⟩

end Cert.KernelIdeal.Totals

end
-- ==== Proof.KernelValue.lean ====
/-
  The kernel's result, as the specification's ratio of the argument arrays.

  After the region the three one-element outputs hold the three totals over the rows. The host lines after it
  reshape each to a scalar, add the first two, subtract the third, add ε to the third and to that difference, and
  divide: the ratio `(I + ε) / ((A + D − I) + ε)` of the totals `A`, `D`, `I`.
-/
import proofs.«137108_j23441931502276_1_alg».proof.Proof.RunningSums
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Totals Idealize.ShloMosaic.ValueIdx Cert.Accuracy

variable (m : (ℓ : Loc nD τ sig) → Buf (Elt Ideal) ℓ) (ρ : Dev nD → PrngReg)

/-- The host lines after the region, as a function of the region's three one-element arrays: each reshaped to a
    scalar; the first two added, the third subtracted; ε added to the third and to that difference; the quotient. -/
def tailOf (a₀ a₁ a₂ : Vec Ideal S1x1 .f32) : FVec Ideal S_ .f32 :=
  Host.divf (F := Ideal)
    (addf (shapeCast S_ a₂ shapeCasts_S1x1_S_) (constant (F := Ideal) S_ .f32 0x358637BD#32))
    (addf (subf (addf (shapeCast S_ a₀ shapeCasts_S1x1_S_) (shapeCast S_ a₁ shapeCasts_S1x1_S_))
        (shapeCast S_ a₂ shapeCasts_S1x1_S_)) (constant (F := Ideal) S_ .f32 0x358637BD#32))

/-- On three constant arrays the tail is the ratio of the three constants. -/
theorem tailOf_const (A D I : EReal) :
    tailOf (fun _ => A) (fun _ => D) (fun _ => I) = fun _ => ratioOf A D I := funext fun _ => rfl

/-- What the run leaves at the result is the tail of the region's three arrays. -/
theorem tail_is_tailOf (c : Dev nD) :
    Pipeline.afterTail₀ cfgs (dats m) 0 (V0 m) [hostOps1] c main_v8
      = tailOf (Pipeline.withArrays (cfgs 0).spec c (V0 m c) (fun w => (dats m 0 c).arrAt w (cfgs 0).N) (Proc.devRef .tc main_v0_0))
          (Pipeline.withArrays (cfgs 0).spec c (V0 m c) (fun w => (dats m 0 c).arrAt w (cfgs 0).N) (Proc.devRef .tc main_v0_1))
          (Pipeline.withArrays (cfgs 0).spec c (V0 m c) (fun w => (dats m 0 c).arrAt w (cfgs 0).N) (Proc.devRef .tc main_v0_2)) := by
  unfold Pipeline.afterTail₀
  show StableHlo.after hostOps1 _ (Proc.devRef .tc main_v8) = _
  after_results
  rfl

/-- The host lines after the region, over the region's three arrays at the totals, give the ratio. -/
theorem tail_eq (c : Dev nD) :
    Pipeline.afterTail₀ cfgs (dats m) 0 (V0 m) [hostOps1] c main_v8
      = fun _ => ratio (arr₁ m c) (arr₂ m c) (arr₃ m c) := by
  have w₁ : Pipeline.withArrays (cfgs 0).spec c (V0 m c) (fun w => (dats m 0 c).arrAt w (cfgs 0).N) (Proc.devRef .tc main_v0_0)
      = fun _ => farCount (arr₁ m c) (arr₂ m c) :=
    ((Pipeline.withArrays_arr spec0 launch0.win.arr_inj c _ _ 3).trans (final_1 m c)).trans (held_1_eq m c)
  have w₂ : Pipeline.withArrays (cfgs 0).spec c (V0 m c) (fun w => (dats m 0 c).arrAt w (cfgs 0).N) (Proc.devRef .tc main_v0_1)
      = fun _ => wantSum (arr₃ m c) :=
    ((Pipeline.withArrays_arr spec0 launch0.win.arr_inj c _ _ 4).trans (final_2 m c)).trans (held_2_eq m c)
  have w₃ : Pipeline.withArrays (cfgs 0).spec c (V0 m c) (fun w => (dats m 0 c).arrAt w (cfgs 0).N) (Proc.devRef .tc main_v0_2)
      = fun _ => bothSum (arr₁ m c) (arr₂ m c) (arr₃ m c) :=
    ((Pipeline.withArrays_arr spec0 launch0.win.arr_inj c _ _ 5).trans (final_3 m c)).trans (held_3_eq m c)
  rw [tail_is_tailOf, w₁, w₂, w₃]
  exact tailOf_const (farCount (arr₁ m c) (arr₂ m c)) (wantSum (arr₃ m c)) (bothSum (arr₁ m c) (arr₂ m c) (arr₃ m c))

/-- The run, read: the result at the ratio of the argument arrays' totals, the arguments unchanged. -/
theorem run : θ_run defs (onTc (τ := τ) (main (F := Ideal))) ⟨m, fun _ => 0, ρ⟩ fun r => ∀ c : Dev nD,
      r.2.mem ((c : Thread nD τ).loc main_v8) = (fun _ => ratio (arr₁ m c) (arr₂ m c) (arr₃ m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v8 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  The certificate of a thresholded-distance overlap ratio.

  Both programs take `x₁, x₂ : [262144, 128]` and `d : [262144, 1]`, call row `n` FAR when the Euclidean distance
  `√(∑ₖ (x₁ n k − x₂ n k)²)` exceeds 5/8, and return

      (I + ε) / ((A + D − I) + ε),     A = ∑ₙ far n,   D = ∑ₙ d n,   I = ∑ₙ far n · d n.

  The kernel walks the rows in 32 blocks of 8192: at each grid point it adds the block's three partial sums to three
  one-element outputs that stay in place across the grid (zeroed at the first point, written back after the last),
  and forms the ratio on the host. The reference sums each column at once. On the extended reals the running sum
  `(((0 + P₀) + P₁) + …) + P₃₁` of the block sums is the sum over all the rows, because addition there is commutative
  and associative; the kernel's conversion of the comparison's bit (widened, then read as a signed integer) is the
  reference's unsigned conversion of it; the threshold and ε are one bit pattern on both sides. The precondition is
  never opened: no law used here needs finite inputs.

    Spec            the row flag, the three totals, the ratio; the block-sum law
    RefSpec         the reference, read operation by operation, is the ratio
    BlockPayloads   the kernel body's arithmetic on one block, at the ideal values
    CaseValues      what the first point and a later point leave in the three outputs
    RunningSums     the outputs after each point, by induction; the outputs' arrays after the region
    KernelValue     the host lines after the region: the kernel's result is the ratio

  The three frames are the generated ones (the reference's is its generated run with the result dropped); the ideal
  pass rewrote nothing, so `preserves` is trivial.
-/
import proofs.«137108_j23441931502276_1_alg».proof.Defs
import proofs.«137108_j23441931502276_1_alg».proof.Proof.Gen.Kernel
import proofs.«137108_j23441931502276_1_alg».proof.Proof.Gen.Kernel.Skeleton
import proofs.«137108_j23441931502276_1_alg».proof.Proof.Gen.Kernel.Launch
import proofs.«137108_j23441931502276_1_alg».proof.Proof.Gen.Kernel.Points
import proofs.«137108_j23441931502276_1_alg».proof.Proof.Gen.Kernel.Frame
import proofs.«137108_j23441931502276_1_alg».proof.Proof.Gen.KernelIdeal
import proofs.«137108_j23441931502276_1_alg».proof.Proof.Gen.KernelIdeal.Skeleton
import proofs.«137108_j23441931502276_1_alg».proof.Proof.Gen.KernelIdeal.Launch
import proofs.«137108_j23441931502276_1_alg».proof.Proof.Gen.KernelIdeal.Points
import proofs.«137108_j23441931502276_1_alg».proof.Proof.Gen.KernelIdeal.Frame
import proofs.«137108_j23441931502276_1_alg».proof.Proof.Gen.ReferenceIdeal
import proofs.«137108_j23441931502276_1_alg».proof.Proof.Gen.ReferenceIdeal.Run
import proofs.«137108_j23441931502276_1_alg».proof.Proof.Gen.ReferenceIdeal.Read
import proofs.«137108_j23441931502276_1_alg».proof.Proof.Gen.Pre_finite_inputs
import proofs.«137108_j23441931502276_1_alg».proof.Proof.RefSpec
import proofs.«137108_j23441931502276_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel and its idealization run to the end and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- At the ideal values, from memories that agree on the three arguments, the kernel ends with its result at the
    ratio of the arguments' totals and the reference with its result at the same ratio. -/
theorem algebraic : Cert.algebraic_KernelIdeal_ReferenceIdeal := by
  intro m ρ m' ρ' _ hagree
  refine ⟨fun c => fun _ => Cert.Accuracy.ratio (Cert.KernelIdeal.Totals.arr₁ m c) (Cert.KernelIdeal.Totals.arr₂ m c)
    (Cert.KernelIdeal.Totals.arr₃ m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefSpec.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
